-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x2 : Shape := ⟨2, ![100000, 2]⟩
abbrev S2x1600000 : Shape := ⟨2, ![2, 1600000]⟩
abbrev S64x256 : Shape := ⟨2, ![64, 256]⟩
abbrev S256 : Shape := ⟨1, ![256]⟩
abbrev S256x256 : Shape := ⟨2, ![256, 256]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg8 : FVec F S256 .f32) (main_arg14 : FVec F S256 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S256 .f32 := broadcastInDim S256 ![] bcast_S_S256 main_cst_26
  let main_v70 : IVec S256 1 := cmpf .oge main_arg8 main_v69
  let main_c_27 : IVec S_ 1 := constantI S_ 1 1#1
  let main_v71 : IVec S_ 1 := (fun x v => Host.reduce IntOp.andi x v reducesTo_S256_S_d0 h_S_) main_v70 main_c_27
  let main_v72 : IVec S_ 1 := andi main_v68 main_v71
  let main_cst_28 : FVec F S_ .f32 := constant S_ .f32 0x00000000#32
  let main_v73 : FVec F S256 .f32 := broadcastInDim S256 ![] bcast_S_S256 main_cst_28
  let main_v74 : IVec S256 1 := cmpf .oge main_arg14 main_v73
  let main_c_29 : IVec S_ 1 := constantI S_ 1 1#1
  let main_v75 : IVec S_ 1 := (fun x v => Host.reduce IntOp.andi x v reducesTo_S256_S_d0 h_S_) main_v74 main_c_29
  let main_v76 : IVec S_ 1 := andi main_v72 main_v75
  main_v76

def fn_part3 {F : FTy → Type} [FloatOps F] (main_arg8 : FVec F S256 .f32) (main_arg12 : FVec F S256 .f32) (main_arg13 : FVec F S256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg8 main_arg14 main_v63 main_v67

def fn_part2 {F : FTy → Type} [FloatOps F] (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg8 main_arg12 main_arg13 main_arg14 main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : FVec F S100000x2 .f32) (main_arg2 : IVec S2x1600000 32) (main_arg3 : FVec F S64x256 .f32) (main_arg4 : FVec F S256 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S100000x2 : Shape := ⟨2, ![100000, 2]⟩
abbrev S2x1600000 : Shape := ⟨2, ![2, 1600000]⟩
abbrev S64x256 : Shape := ⟨2, ![64, 256]⟩
abbrev S256 : Shape := ⟨1, ![256]⟩
abbrev S256x256 : Shape := ⟨2, ![256, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x256 : Shape := ⟨2, ![1, 256]⟩
abbrev S100000x256 : Shape := ⟨2, ![100000, 256]⟩
abbrev S4000x64 : Shape := ⟨2, ![4000, 64]⟩
abbrev S4000x256 : Shape := ⟨2, ![4000, 256]⟩

abbrev nBuf : Space → Nat
  | .hbm => 53
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S100000x2, .f32⟩
  | .hbm, ⟨2, _⟩ => ⟨S2x1600000, .i32⟩
  | .hbm, ⟨3, _⟩ => ⟨S64x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S100000x256, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S4000x256, .f32⟩
  | .local _ .vmem, ⟨13, _⟩ => ⟨S4000x256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S256 : S_.BroadcastsInDim S256 (![] : Fin 0 → Fin S256.rank)
  shapeCasts_S256_S1x256 : S256.ShapeCasts S1x256
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  inb_S4000x256_S4000x256_0_0 : ∀ a, (![0, 0] : Fin 2 → Nat) a + S4000x256.size a ≤ S4000x256.size a
  h_S4000x256 : 0 < S4000x256.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x256_S4000x256_1_0_0_1_n_n_wf : DotDims.WF S4000x64 S64x256 S4000x256 [1] [0] [0] [1] [] []
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x256.size a ≤ S100000x256.size a
  hwx0_10 : ∀ i : grid0.Coords, EltTy.bits .f32 = 32 ∨ (Rect.block (s := S100000x256) S4000x256.size (cc0_transform_10 i) (hinb0_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S4000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x2 : Shape := ⟨2, ![100000, 2]⟩
abbrev S2x1600000 : Shape := ⟨2, ![2, 1600000]⟩
abbrev S64x256 : Shape := ⟨2, ![64, 256]⟩
abbrev S256 : Shape := ⟨1, ![256]⟩
abbrev S256x256 : Shape := ⟨2, ![256, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x256 : Shape := ⟨2, ![100000, 256]⟩
abbrev S1x256 : Shape := ⟨2, ![1, 256]⟩

abbrev nBuf : Space → Nat
  | .hbm => 75
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x2, .f32⟩
  | .hbm, ⟨2, _⟩ => ⟨S2x1600000, .i32⟩
  | .hbm, ⟨3, _⟩ => ⟨S64x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S100000x256, .f32⟩
  | .hbm, ⟨34, _⟩ => ⟨S1x256, .f32⟩
  | .hbm, ⟨35, _⟩ => ⟨S100000x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S100000x256, .f32⟩
  | .hbm, ⟨47, _⟩ => ⟨S100000x256, .f32⟩
  | .hbm, ⟨48, _⟩ => ⟨S1x256, .f32⟩
  | .hbm, ⟨49, _⟩ => ⟨S100000x256, .f32⟩
  | .hbm, ⟨50, _⟩ => ⟨S100000x256, .f32⟩
  | .hbm, ⟨51, _⟩ => ⟨S_, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S1x256, .f32⟩
  | .hbm, ⟨56, _⟩ => ⟨S100000x256, .f32⟩
  | .hbm, ⟨57, _⟩ => ⟨S100000x256, .f32⟩
  | .hbm, ⟨58, _⟩ => ⟨S1x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S1x256, .f32⟩
  | .hbm, ⟨67, _⟩ => ⟨S100000x256, .f32⟩
  | .hbm, ⟨68, _⟩ => ⟨S100000x256, .f32⟩
  | .hbm, ⟨69, _⟩ => ⟨S1x256, .f32⟩
  | .hbm, ⟨70, _⟩ => ⟨S100000x256, .f32⟩
  | .hbm, ⟨71, _⟩ => ⟨S100000x256, .f32⟩
  | .hbm, ⟨72, _⟩ => ⟨S_, .f32⟩
  | .hbm, ⟨73, _⟩ => ⟨S100000x256, .f32⟩
  | .hbm, ⟨74, _⟩ => ⟨S100000x256, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  bcast_S_S100000x256 : S_.BroadcastsInDim S100000x256 (![] : Fin 0 → Fin S100000x256.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x256_S100000x256_1_0_0_1_n_n_wf : DotDims.WF S100000x64 S64x256 S100000x256 [1] [0] [0] [1] [] []
  dot_S100000x256_S256x256_S100000x256_1_0_0_1_n_n_wf : DotDims.WF S100000x256 S256x256 S100000x256 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.NormFold.lean ====
/-
  Folding an evaluation-mode normalisation into one affine map, on the extended reals.

  A normalisation layer in evaluation mode sends a pre-activation z to (z - mean) * s + shift, where the
  scale s = gain * rsqrt (variance + eps) is one number per column. Written as one affine map it is
  z * s + (shift - mean * s). Over the reals the two agree by distributivity; over the extended reals
  distributivity fails at the infinities in general, but it holds as soon as the MEAN and the SCALE are real
  numbers, whatever extended real z and the shift are: an infinite z makes both sides the same infinity
  (or both 0 when s = 0), because adding the real number -(mean * s) does not move an infinity.
-/
import Mathlib.Data.EReal.Operations
import Mathlib.Tactic.Ring
import Mathlib.Tactic.NormNum

namespace Cert.NormFold

/-- Subtracting a real number before multiplying by a real number is subtracting the product afterwards,
    for every extended real z. -/
theorem sub_coe_mul_coe (z : EReal) (mu s : ℝ) :
    (z - (mu : EReal)) * (s : EReal) = z * (s : EReal) + -((mu : EReal) * (s : EReal)) := by
  induction z using EReal.rec with
  | bot =>
    rw [EReal.bot_sub]
    rcases lt_trichotomy s 0 with hs | rfl | hs
    · rw [EReal.bot_mul_coe_of_neg hs, ← EReal.coe_mul, ← EReal.coe_neg, EReal.top_add_coe]
    · simp
    · rw [EReal.bot_mul_coe_of_pos hs, EReal.bot_add]
  | top =>
    rw [EReal.top_sub_coe]
    rcases lt_trichotomy s 0 with hs | rfl | hs
    · rw [EReal.top_mul_coe_of_neg hs, EReal.bot_add]
    · simp
    · rw [EReal.top_mul_coe_of_pos hs, ← EReal.coe_mul, ← EReal.coe_neg, EReal.top_add_coe]
  | coe r =>
    rw [← EReal.coe_sub, ← EReal.coe_mul, ← EReal.coe_mul, ← EReal.coe_mul, ← EReal.coe_neg, ← EReal.coe_add]
    congr 1
    ring

/-- The normalisation written with the mean subtracted first is the folded affine map, when the mean and the
    scale are real. -/
theorem normalise_eq_affine (z shift : EReal) (mu s : ℝ) :
    (z - (mu : EReal)) * (s : EReal) + shift = z * (s : EReal) + (shift - (mu : EReal) * (s : EReal)) := by
  rw [sub_coe_mul_coe, sub_eq_add_neg, add_assoc, add_comm (-((mu : EReal) * (s : EReal))) shift]

end Cert.NormFold
-- ==== Proof.EncoderSpec.lean ====
/-
  The node encoder as a function on the extended reals, row by row.

  A node's feature row h (its own features plus the sum of its neighbours') goes twice through
  "dense layer, evaluation-mode normalisation, rectification":
      z_n = (sum over k of h_k * W (k, n)) + b_n,      out_n = max ((z_n - mean_n) * s_n + shift_n) 0,
  with the per-column scale s_n = gain_n * rsqrt (variance_n + eps). The same layer with the normalisation
  folded into one affine map is out_n = max (z_n * s_n + (shift_n - mean_n * s_n)) 0. The two forms agree on every
  extended real z_n as soon as the mean and the scale of the column are real numbers, and the scale is real when the
  gain is real and the variance is a real number that is not negative (then variance + eps > 0 and its inverse
  square root is an ordinary positive real).
-/
import Idealize.ShloMosaic.Lib.ValueIdx
import Idealize.ShloMosaic.PureOps.Ideal.Laws
import proofs.«169085_j35356170780707_1_alg».proof.Proof.NormFold

noncomputable section

namespace Cert.EncoderSpec

open Idealize.ShloMosaic Idealize.ShloMosaic.ValueIdx

/-- A matrix of extended reals with r rows and c columns, indexed as the programs index it. -/
abbrev Mat (r c : ℕ) : Type := (⟨2, ![r, c]⟩ : Shape).Idx → EReal
/-- A vector of extended reals of length c. -/
abbrev Col (c : ℕ) : Type := (⟨1, ![c]⟩ : Shape).Idx → EReal

/-- The stabiliser added to a variance: the single-precision number nearest 1e-5, as the exact real it is. -/
abbrev eps : EReal := Ideal.ofBits .f32 0x3727C5AC#32

/-- It is a positive real number. -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-- Column n's scale: the gain times the inverse square root of the stabilised variance. -/
def scale (g rv : Col 256) (n : Fin 256) : EReal := g (ix1 n) * Ideal.rsqrt (rv (ix1 n) + eps)

/-- Column n of the dense layer applied to the row h. -/
def dense {K : ℕ} (W : Mat K 256) (b : Col 256) (h : Fin K → EReal) (n : Fin 256) : EReal :=
  (∑ k : Fin K, h k * W (ix2 k n)) + b (ix1 n)

/-- Normalise (mean first) and rectify the pre-activation z of column n. -/
def normRelu (g be rm rv : Col 256) (z : EReal) (n : Fin 256) : EReal :=
  max ((z - rm (ix1 n)) * scale g rv n + be (ix1 n)) 0

/-- The same with the normalisation folded into one affine map. -/
def foldRelu (g be rm rv : Col 256) (z : EReal) (n : Fin 256) : EReal :=
  max (z * scale g rv n + (be (ix1 n) - rm (ix1 n) * scale g rv n)) 0

/-- The scale of a column is a real number when its gain is real and its variance is a real that is not negative. -/
theorem scale_real (g rv : Col 256) (n : Fin 256) (hg : ∃ r : ℝ, g (ix1 n) = (r : EReal))
    (hv : ∃ r : ℝ, 0 ≤ r ∧ rv (ix1 n) = (r : EReal)) : ∃ s : ℝ, scale g rv n = (s : EReal) := by
  obtain ⟨a, ha⟩ := hg
  obtain ⟨v, hv0, hv⟩ := hv
  obtain ⟨e, he0, he⟩ := eps_pos
  have hpos : 0 < v + e := by linarith
  refine ⟨a * (Real.sqrt (v + e))⁻¹, ?_⟩
  unfold scale
  rw [ha, hv, he, ← EReal.coe_add, Ideal.rsqrt_coe, if_neg (not_lt.mpr hpos.le), if_neg hpos.ne', ← EReal.coe_mul]

/-- The two forms of the layer's tail agree when the column's mean and scale are real. -/
theorem normRelu_eq_foldRelu (g be rm rv : Col 256) (z : EReal) (n : Fin 256)
    (hm : ∃ r : ℝ, rm (ix1 n) = (r : EReal)) (hs : ∃ s : ℝ, scale g rv n = (s : EReal)) :
    normRelu g be rm rv z n = foldRelu g be rm rv z n := by
  obtain ⟨mu, hmu⟩ := hm
  obtain ⟨s, hs⟩ := hs
  unfold normRelu foldRelu
  rw [hmu, hs, Cert.NormFold.normalise_eq_affine]

/-- What the reference computes for node row h: both layers with the mean subtracted first. -/
def encodeNorm (W1 : Mat 64 256) (b1 g1 be1 rm1 rv1 : Col 256) (W2 : Mat 256 256) (b2 g2 be2 rm2 rv2 : Col 256)
    (h : Fin 64 → EReal) (n : Fin 256) : EReal :=
  normRelu g2 be2 rm2 rv2 (dense W2 b2 (fun k => normRelu g1 be1 rm1 rv1 (dense W1 b1 h k) k) n) n

/-- What the kernel computes for node row h: both layers with the folded affine map. -/
def encodeFold (W1 : Mat 64 256) (b1 g1 be1 rm1 rv1 : Col 256) (W2 : Mat 256 256) (b2 g2 be2 rm2 rv2 : Col 256)
    (h : Fin 64 → EReal) (n : Fin 256) : EReal :=
  foldRelu g2 be2 rm2 rv2 (dense W2 b2 (fun k => foldRelu g1 be1 rm1 rv1 (dense W1 b1 h k) k) n) n

/-- They agree when, in both layers, every column's gain and mean are real and its variance is a real that is not
    negative. -/
theorem encodeNorm_eq_encodeFold (W1 : Mat 64 256) (b1 g1 be1 rm1 rv1 : Col 256) (W2 : Mat 256 256)
    (b2 g2 be2 rm2 rv2 : Col 256)
    (hg1 : ∀ n : Fin 256, ∃ r : ℝ, g1 (ix1 n) = (r : EReal)) (hm1 : ∀ n : Fin 256, ∃ r : ℝ, rm1 (ix1 n) = (r : EReal))
    (hv1 : ∀ n : Fin 256, ∃ r : ℝ, 0 ≤ r ∧ rv1 (ix1 n) = (r : EReal))
    (hg2 : ∀ n : Fin 256, ∃ r : ℝ, g2 (ix1 n) = (r : EReal)) (hm2 : ∀ n : Fin 256, ∃ r : ℝ, rm2 (ix1 n) = (r : EReal))
    (hv2 : ∀ n : Fin 256, ∃ r : ℝ, 0 ≤ r ∧ rv2 (ix1 n) = (r : EReal))
    (h : Fin 64 → EReal) (n : Fin 256) :
    encodeNorm W1 b1 g1 be1 rm1 rv1 W2 b2 g2 be2 rm2 rv2 h n = encodeFold W1 b1 g1 be1 rm1 rv1 W2 b2 g2 be2 rm2 rv2 h n := by
  unfold encodeNorm encodeFold
  rw [normRelu_eq_foldRelu g2 be2 rm2 rv2 _ n (hm2 n) (scale_real g2 rv2 n (hg2 n) (hv2 n))]
  congr 2
  funext k
  exact normRelu_eq_foldRelu g1 be1 rm1 rv1 _ k (hm1 k) (scale_real g1 rv1 k (hg1 k) (hv1 k))

/-- The rectified affine map of column n with the scale and shift columns given outright. -/
def affRelu (s sh : Fin 256 → EReal) (z : EReal) (n : Fin 256) : EReal := max (z * s n + sh n) 0

/-- The dense layer with its bias column given as a function of the column. -/
def denseF {K : ℕ} (W : Mat K 256) (b : Fin 256 → EReal) (h : Fin K → EReal) (n : Fin 256) : EReal :=
  (∑ k : Fin K, h k * W (ix2 k n)) + b n

/-- Two layers of "dense, affine, rectify" on the row h. -/
def encodeAff (W1 : Mat 64 256) (b1 s1 sh1 : Fin 256 → EReal) (W2 : Mat 256 256) (b2 s2 sh2 : Fin 256 → EReal)
    (h : Fin 64 → EReal) (n : Fin 256) : EReal :=
  affRelu s2 sh2 (denseF W2 b2 (fun k => affRelu s1 sh1 (denseF W1 b1 h k) k) n) n

/-- The affine encoder depends on its matrices, columns and row only through their values. -/
theorem encodeAff_congr {W1 W1' : Mat 64 256} {b1 b1' s1 s1' sh1 sh1' : Fin 256 → EReal} {W2 W2' : Mat 256 256}
    {b2 b2' s2 s2' sh2 sh2' : Fin 256 → EReal} {h h' : Fin 64 → EReal} (n : Fin 256)
    (hW1 : W1 = W1') (hb1 : ∀ k, b1 k = b1' k) (hs1 : ∀ k, s1 k = s1' k) (hsh1 : ∀ k, sh1 k = sh1' k)
    (hW2 : W2 = W2') (hb2 : ∀ k, b2 k = b2' k) (hs2 : ∀ k, s2 k = s2' k) (hsh2 : ∀ k, sh2 k = sh2' k)
    (hh : ∀ j, h j = h' j) :
    encodeAff W1 b1 s1 sh1 W2 b2 s2 sh2 h n = encodeAff W1' b1' s1' sh1' W2' b2' s2' sh2' h' n := by
  obtain rfl := hW1
  obtain rfl := hW2
  obtain rfl : b1 = b1' := funext hb1
  obtain rfl : s1 = s1' := funext hs1
  obtain rfl : sh1 = sh1' := funext hsh1
  obtain rfl : b2 = b2' := funext hb2
  obtain rfl : s2 = s2' := funext hs2
  obtain rfl : sh2 = sh2' := funext hsh2
  obtain rfl : h = h' := funext hh
  rfl

/-- The folded encoder is the affine one at the folded scale and shift of each layer. -/
theorem encodeFold_eq_encodeAff (W1 : Mat 64 256) (b1 g1 be1 rm1 rv1 : Col 256) (W2 : Mat 256 256)
    (b2 g2 be2 rm2 rv2 : Col 256) (h : Fin 64 → EReal) (n : Fin 256) :
    encodeFold W1 b1 g1 be1 rm1 rv1 W2 b2 g2 be2 rm2 rv2 h n
      = encodeAff W1 (fun n => b1 (ix1 n)) (scale g1 rv1) (fun n => be1 (ix1 n) - rm1 (ix1 n) * scale g1 rv1 n)
          W2 (fun n => b2 (ix1 n)) (scale g2 rv2) (fun n => be2 (ix1 n) - rm2 (ix1 n) * scale g2 rv2 n) h n := rfl

/-- The whole result array in the reference's form: entry (i, n) from node i's row x_i + a_i, where a is the
    array of neighbour sums. -/
def resultNorm (X A : Mat 100000 64) (W1 : Mat 64 256) (b1 g1 be1 rm1 rv1 : Col 256) (W2 : Mat 256 256)
    (b2 g2 be2 rm2 rv2 : Col 256) : Mat 100000 256 :=
  fun j => encodeNorm W1 b1 g1 be1 rm1 rv1 W2 b2 g2 be2 rm2 rv2
    (fun k => X (ix2 (j 0 : Fin 100000) k) + A (ix2 (j 0 : Fin 100000) k)) (j 1 : Fin 256)

/-- The whole result array in the kernel's form. -/
def resultFold (X A : Mat 100000 64) (W1 : Mat 64 256) (b1 g1 be1 rm1 rv1 : Col 256) (W2 : Mat 256 256)
    (b2 g2 be2 rm2 rv2 : Col 256) : Mat 100000 256 :=
  fun j => encodeFold W1 b1 g1 be1 rm1 rv1 W2 b2 g2 be2 rm2 rv2
    (fun k => X (ix2 (j 0 : Fin 100000) k) + A (ix2 (j 0 : Fin 100000) k)) (j 1 : Fin 256)

theorem resultNorm_eq_resultFold (X A : Mat 100000 64) (W1 : Mat 64 256) (b1 g1 be1 rm1 rv1 : Col 256) (W2 : Mat 256 256)
    (b2 g2 be2 rm2 rv2 : Col 256)
    (hg1 : ∀ n : Fin 256, ∃ r : ℝ, g1 (ix1 n) = (r : EReal)) (hm1 : ∀ n : Fin 256, ∃ r : ℝ, rm1 (ix1 n) = (r : EReal))
    (hv1 : ∀ n : Fin 256, ∃ r : ℝ, 0 ≤ r ∧ rv1 (ix1 n) = (r : EReal))
    (hg2 : ∀ n : Fin 256, ∃ r : ℝ, g2 (ix1 n) = (r : EReal)) (hm2 : ∀ n : Fin 256, ∃ r : ℝ, rm2 (ix1 n) = (r : EReal))
    (hv2 : ∀ n : Fin 256, ∃ r : ℝ, 0 ≤ r ∧ rv2 (ix1 n) = (r : EReal)) :
    resultNorm X A W1 b1 g1 be1 rm1 rv1 W2 b2 g2 be2 rm2 rv2 = resultFold X A W1 b1 g1 be1 rm1 rv1 W2 b2 g2 be2 rm2 rv2 :=
  funext fun j => encodeNorm_eq_encodeFold W1 b1 g1 be1 rm1 rv1 W2 b2 g2 be2 rm2 rv2 hg1 hm1 hv1 hg2 hm2 hv2 _ _

end Cert.EncoderSpec

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KernelRow.lean ====
/-
  What the kernel's body leaves at one entry of its output block.

  The body adds the node block and the neighbour-sum block, and sends the sum twice through "matrix product into a
  zero accumulator, add the bias row, multiply by the scale row, add the shift row, rectify". The changes of float
  format around the products are the identity on the extended reals. Read at entry (p, q) of the block this is the
  two-layer encoder of row p of the summed block, with each one-row block read at its only row.
-/
import proofs.«169085_j35356170780707_1_alg».proof.Proof.Gen.KernelIdeal.Skeleton
import proofs.«169085_j35356170780707_1_alg».proof.Proof.EncoderSpec
import proofs.«169085_j35356170780707_1_alg».proof.Proof.LibPlainMatmul
import Idealize.ShloMosaic.Lib.ValueLayout
import Idealize.ShloMosaic.Lib.Pipeline.Value

noncomputable section

namespace Cert.KernelIdeal.RowValue

open Cert.KernelIdeal Cert.KernelIdeal.Gen Idealize.ShloMosaic Idealize.ShloMosaic.ValueIdx Cert.EncoderSpec

/-- The dimension numbers of both products are the plain "rows by contraction, contraction by columns" ones. -/
theorem dot1_plain : dot_S4000x64_S64x256_S4000x256_1_0_0_1_n_n = DotDims.plain 4000 64 256 := rfl
theorem dot2_plain : dot_S4000x256_S256x256_S4000x256_1_0_0_1_n_n = DotDims.plain 4000 256 256 := rfl

/-- One layer on a block of 4000 rows, read at entry (p, q): the product's entry plus the bias, times the scale,
    plus the shift, rectified; the three one-row blocks are read at their row 0. -/
theorem layer_apply {K : ℕ} {φ₁ φ₂ : FTy} (a : FVec Ideal ⟨2, ![4000, K]⟩ φ₁) (w : FVec Ideal ⟨2, ![K, 256]⟩ φ₂)
    (b s sh : FVec Ideal ⟨2, ![1, 256]⟩ .f32)
    (hb hs hsh : (⟨2, ![1, 256]⟩ : Shape).Broadcasts ⟨2, ![4000, 256]⟩) (p : Fin 4000) (q : Fin 256) :
    maximumf (addf (mulf (addf (matmul (DotDims.plain 4000 K 256) none a w (constant ⟨2, ![4000, 256]⟩ .f32 0x00000000#32))
        (broadcastTo ⟨2, ![4000, 256]⟩ b hb)) (broadcastTo ⟨2, ![4000, 256]⟩ s hs)) (broadcastTo ⟨2, ![4000, 256]⟩ sh hsh))
        (broadcast ⟨2, ![4000, 256]⟩ (Scalar.ofBits (F := Ideal) .f32 0x00000000#32)) (ix2 p q)
      = affRelu (fun n => s (ix2 (0 : Fin 1) n)) (fun n => sh (ix2 (0 : Fin 1) n))
          (denseF w (fun n => b (ix2 (0 : Fin 1) n)) (fun k => a (ix2 p k)) q) q := by
  show max ((FloatOps.matmul (DotDims.plain 4000 K 256) none a w (constant ⟨2, ![4000, 256]⟩ .f32 0x00000000#32) (ix2 p q)
        + broadcastTo ⟨2, ![4000, 256]⟩ b hb (ix2 p q)) * broadcastTo ⟨2, ![4000, 256]⟩ s hs (ix2 p q)
        + broadcastTo ⟨2, ![4000, 256]⟩ sh hsh (ix2 p q)) (Ideal.ofBits .f32 0x00000000#32) = _
  rw [broadcastTo_1b_ab_apply, broadcastTo_1b_ab_apply, broadcastTo_1b_ab_apply, Cert.PlainMatmul.apply,
    Ideal.ofBits_zero_f32]
  rfl

/-- The first layer's rectified output, as the block of values the second product reads. -/
def hidden (x0 x1 : FVec Ideal S4000x64 .f32) (x2 : FVec Ideal S64x256 .f32) (x3 x4 x5 : FVec Ideal S1x256 .f32) :
    FVec Ideal S4000x256 .f32 :=
  maximumf (addf (mulf (addf (matmul (DotDims.plain 4000 64 256) none
      (truncf .bf16 (addf x0 (shapeCast S4000x64 x1 shapeCasts_S4000x64_S4000x64)) bitsLt_bf16_f32)
      (truncf .bf16 x2 bitsLt_bf16_f32) (constant S4000x256 .f32 0x00000000#32))
      (broadcastTo S4000x256 (shapeCast S1x256 x3 shapeCasts_S1x256_S1x256) broadcasts_S1x256_S4000x256))
      (broadcastTo S4000x256 (shapeCast S1x256 x4 shapeCasts_S1x256_S1x256) broadcasts_S1x256_S4000x256))
      (broadcastTo S4000x256 (shapeCast S1x256 x5 shapeCasts_S1x256_S1x256) broadcasts_S1x256_S4000x256))
    (broadcast S4000x256 (Scalar.ofBits (F := Ideal) .f32 0x00000000#32))

/-- The stored value is the second layer over the first layer's output. -/
theorem payload_eq (x0 x1 : FVec Ideal S4000x64 .f32) (x2 : FVec Ideal S64x256 .f32) (x3 x4 x5 : FVec Ideal S1x256 .f32)
    (x6 : FVec Ideal S256x256 .f32) (x7 x8 x9 : FVec Ideal S1x256 .f32) :
    k0_pay1 (F := Ideal) (k0_pay2 x0 x1 x2 x3 x4 x5 x6 x7 x8) (k0_pay3 x9)
      = maximumf (addf (mulf (addf (matmul (DotDims.plain 4000 256 256) none
          (truncf .bf16 (hidden x0 x1 x2 x3 x4 x5) bitsLt_bf16_f32)
          (truncf .bf16 x6 bitsLt_bf16_f32) (constant S4000x256 .f32 0x00000000#32))
          (broadcastTo S4000x256 (shapeCast S1x256 x7 shapeCasts_S1x256_S1x256) broadcasts_S1x256_S4000x256))
          (broadcastTo S4000x256 (shapeCast S1x256 x8 shapeCasts_S1x256_S1x256) broadcasts_S1x256_S4000x256))
          (broadcastTo S4000x256 (shapeCast S1x256 x9 shapeCasts_S1x256_S1x256) broadcasts_S1x256_S4000x256))
        (broadcast S4000x256 (Scalar.ofBits (F := Ideal) .f32 0x00000000#32)) := rfl

/-- The first layer's output at entry (p, k). -/
theorem hidden_apply (x0 x1 : FVec Ideal S4000x64 .f32) (x2 : FVec Ideal S64x256 .f32) (x3 x4 x5 : FVec Ideal S1x256 .f32)
    (p : Fin 4000) (k : Fin 256) :
    hidden x0 x1 x2 x3 x4 x5 (ix2 p k)
      = affRelu (fun n => x4 (ix2 (0 : Fin 1) n)) (fun n => x5 (ix2 (0 : Fin 1) n))
          (denseF x2 (fun n => x3 (ix2 (0 : Fin 1) n)) (fun j => x0 (ix2 p j) + x1 (ix2 p j)) k) k := by
  unfold hidden
  refine (layer_apply (K := 64) _ _ _ _ _ _ _ _ p k).trans ?_
  simp only [shapeCast_self]
  rfl

/-- The stored value at entry (p, q) of the block: the two-layer encoder of row p of the summed input blocks. -/
theorem payload_apply (x0 x1 : FVec Ideal S4000x64 .f32) (x2 : FVec Ideal S64x256 .f32) (x3 x4 x5 : FVec Ideal S1x256 .f32)
    (x6 : FVec Ideal S256x256 .f32) (x7 x8 x9 : FVec Ideal S1x256 .f32) (p : Fin 4000) (q : Fin 256) :
    k0_pay1 (F := Ideal) (k0_pay2 x0 x1 x2 x3 x4 x5 x6 x7 x8) (k0_pay3 x9) (ix2 p q)
      = encodeAff x2 (fun n => x3 (ix2 (0 : Fin 1) n)) (fun n => x4 (ix2 (0 : Fin 1) n)) (fun n => x5 (ix2 (0 : Fin 1) n))
          x6 (fun n => x7 (ix2 (0 : Fin 1) n)) (fun n => x8 (ix2 (0 : Fin 1) n)) (fun n => x9 (ix2 (0 : Fin 1) n))
          (fun j => x0 (ix2 p j) + x1 (ix2 p j)) q := by
  rw [payload_eq]
  refine (layer_apply (K := 256) _ _ _ _ _ _ _ _ p q).trans ?_
  simp only [shapeCast_self]
  unfold encodeAff
  refine congrArg (fun z => affRelu _ _ z q) ?_
  refine congrArg (fun h => denseF x6 _ h q) ?_
  funext k
  exact hidden_apply x0 x1 x2 x3 x4 x5 p k

end Cert.KernelIdeal.RowValue

end
-- ==== Proof.KernelBlocks.lean ====
/-
  The blocks the kernel's grid points fetch.

  The grid has 25 points; point t works on rows 4000 t … 4000 t + 3999 of the node array, of the neighbour-sum array and
  of the result. Both weight matrices and the six one-row arrays are fetched whole at every point: their block index is
  (0, 0) throughout, so the block a point sees IS the array.
-/
import proofs.«169085_j35356170780707_1_alg».proof.Proof.Gen.KernelIdeal.Value
import proofs.«169085_j35356170780707_1_alg».proof.Proof.KernelRow
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.EncoderSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them, under names of their literal types -/

abbrev nodes (c : Dev nD) : Mat 100000 64 := V m c main_arg0
abbrev sums (c : Dev nD) : Mat 100000 64 := V m c main_v13
abbrev w1 (c : Dev nD) : Mat 64 256 := V m c main_arg3
abbrev b1row (c : Dev nD) : Mat 1 256 := V m c main_v26
abbrev s1row (c : Dev nD) : Mat 1 256 := V m c main_v27
abbrev t1row (c : Dev nD) : Mat 1 256 := V m c main_v28
abbrev w2 (c : Dev nD) : Mat 256 256 := V m c main_arg9
abbrev b2row (c : Dev nD) : Mat 1 256 := V m c main_v29
abbrev s2row (c : Dev nD) : Mat 1 256 := V m c main_v30
abbrev t2row (c : Dev nD) : Mat 1 256 := V m c main_v31

/-- The result array: entry (i, n) is the two-layer encoder of row i of nodes + sums. -/
def encoded (c : Dev nD) : Mat 100000 256 := fun j =>
  encodeAff (w1 m c) (fun n => b1row m c (ix2 (0 : Fin 1) n)) (fun n => s1row m c (ix2 (0 : Fin 1) n))
    (fun n => t1row m c (ix2 (0 : Fin 1) n)) (w2 m c) (fun n => b2row m c (ix2 (0 : Fin 1) n))
    (fun n => s2row m c (ix2 (0 : Fin 1) n)) (fun n => t2row m c (ix2 (0 : Fin 1) n))
    (fun k => nodes m c (ix2 (j 0 : Fin 100000) k) + sums m c (ix2 (j 0 : Fin 100000) k)) (j 1 : Fin 256)

/-! ## Where each window's block lies, decided over the 25 points -/

theorem idx_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_10.index t (1 : Fin 2) = 0 ∧ win0_10.index t (0 : Fin 2) ≤ 24
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every block of rows is some point's. -/
theorem idx_onto : ∀ q0 : Fin 25, ∃ t : Fin cfg0.N, win0_10.index t = ![q0.val, 0] :=
  (by decide +kernel : ∀ q0 : Fin 25, ∃ t : Fin grid0.N, win0_10.index t = ![q0.val, 0])

/-! ## What each window's block is at point t -/

/-- Every point fetches the whole first weight matrix. -/
theorem blk2 (c : Dev nD) (t : Fin cfg0.N) : (iblk m c 2 t : Mat 64 256) = w1 m c := by
  obtain ⟨e00, e01, e10, e11, eo1, eo0, e20, e21, e30, e31, e40, e41, e50, e51, e60, e61, e70, e71, e80, e81, e90, e91⟩ :=
    idx_facts t
  funext y
  show V m c main_arg3 (((cfg0.win 2).blk t).view.emb y) = V m c main_arg3 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 256 + 1 * (y 1).val = (y 1).val; omega

/-- Every point fetches the whole first bias row. -/
theorem blk3 (c : Dev nD) (t : Fin cfg0.N) : (iblk m c 3 t : Mat 1 256) = b1row m c := by
  obtain ⟨e00, e01, e10, e11, eo1, eo0, e20, e21, e30, e31, e40, e41, e50, e51, e60, e61, e70, e71, e80, e81, e90, e91⟩ :=
    idx_facts t
  funext y
  show V m c main_v26 (((cfg0.win 3).blk t).view.emb y) = V m c main_v26 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Every point fetches the whole first scale row. -/
theorem blk4 (c : Dev nD) (t : Fin cfg0.N) : (iblk m c 4 t : Mat 1 256) = s1row m c := by
  obtain ⟨e00, e01, e10, e11, eo1, eo0, e20, e21, e30, e31, e40, e41, e50, e51, e60, e61, e70, e71, e80, e81, e90, e91⟩ :=
    idx_facts t
  funext y
  show V m c main_v27 (((cfg0.win 4).blk t).view.emb y) = V m c main_v27 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Every point fetches the whole first shift row. -/
theorem blk5 (c : Dev nD) (t : Fin cfg0.N) : (iblk m c 5 t : Mat 1 256) = t1row m c := by
  obtain ⟨e00, e01, e10, e11, eo1, eo0, e20, e21, e30, e31, e40, e41, e50, e51, e60, e61, e70, e71, e80, e81, e90, e91⟩ :=
    idx_facts t
  funext y
  show V m c main_v28 (((cfg0.win 5).blk t).view.emb y) = V m c main_v28 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Every point fetches the whole second weight matrix. -/
theorem blk6 (c : Dev nD) (t : Fin cfg0.N) : (iblk m c 6 t : Mat 256 256) = w2 m c := by
  obtain ⟨e00, e01, e10, e11, eo1, eo0, e20, e21, e30, e31, e40, e41, e50, e51, e60, e61, e70, e71, e80, e81, e90, e91⟩ :=
    idx_facts t
  funext y
  show V m c main_arg9 (((cfg0.win 6).blk t).view.emb y) = V m c main_arg9 y
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 256 + 1 * (y 1).val = (y 1).val; omega

/-- Every point fetches the whole second bias row. -/
theorem blk7 (c : Dev nD) (t : Fin cfg0.N) : (iblk m c 7 t : Mat 1 256) = b2row m c := by
  obtain ⟨e00, e01, e10, e11, eo1, eo0, e20, e21, e30, e31, e40, e41, e50, e51, e60, e61, e70, e71, e80, e81, e90, e91⟩ :=
    idx_facts t
  funext y
  show V m c main_v29 (((cfg0.win 7).blk t).view.emb y) = V m c main_v29 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 256 + 1 * (y 1).val = (y 1).val; omega

/-- Every point fetches the whole second scale row. -/
theorem blk8 (c : Dev nD) (t : Fin cfg0.N) : (iblk m c 8 t : Mat 1 256) = s2row m c := by
  obtain ⟨e00, e01, e10, e11, eo1, eo0, e20, e21, e30, e31, e40, e41, e50, e51, e60, e61, e70, e71, e80, e81, e90, e91⟩ :=
    idx_facts t
  funext y
  show V m c main_v30 (((cfg0.win 8).blk t).view.emb y) = V m c main_v30 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

/-- Every point fetches the whole second shift row. -/
theorem blk9 (c : Dev nD) (t : Fin cfg0.N) : (iblk m c 9 t : Mat 1 256) = t2row m c := by
  obtain ⟨e00, e01, e10, e11, eo1, eo0, e20, e21, e30, e31, e40, e41, e50, e51, e60, e61, e70, e71, e80, e81, e90, e91⟩ :=
    idx_facts t
  funext y
  show V m c main_v31 (((cfg0.win 9).blk t).view.emb y) = V m c main_v31 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 256 + 1 * (y 1).val = (y 1).val; omega

end Cert.KernelIdeal.ArrayValue

end
-- ==== Proof.KernelArray.lean ====
/-
  The kernel's result array as one function of the arrays the region finds.

  What point t writes back is block t of ONE array: entry (i, n) is the two-layer encoder of row i of
  "nodes + neighbour sums", with the one-row arrays read at their row 0. The 25 blocks tile the result's rows, so after
  the run the result array is that function everywhere.
-/
import proofs.«169085_j35356170780707_1_alg».proof.Proof.KernelBlocks

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.EncoderSpec
open Idealize.ShloMosaic.Pipeline (Dat)

variable (m : (ℓ : Loc nD τ sig) → Buf (Elt Ideal) ℓ) (ρ : Dev nD → PrngReg)

/-- Point t's block of the node array and of the neighbour-sum array, under their literal type. -/
abbrev nodeBlk (c : Dev nD) (t : Fin cfg0.N) : Mat 4000 64 := iblk m c 0 t
abbrev sumBlk (c : Dev nD) (t : Fin cfg0.N) : Mat 4000 64 := iblk m c 1 t

/-- Through window 0's block at point t, entry (p, k) of the block is entry (4000 t + p, k) of ANY array of the window's
    shape: the block's rows are rows 4000 t … 4000 t + 3999 and its columns all 64 columns. -/
theorem read_rows0 (A : Mat 100000 64) (t : Fin cfg0.N) (p : Fin 4000) (r : Fin 100000)
    (hr : r.val = win0_10.index t (0 : Fin 2) * 4000 + p.val) (k : Fin 64) :
    ((cfg0.win 0).blk t).view.read (Elt Ideal) A (ix2 p k) = A (ix2 r k) := by
  obtain ⟨e00, e01, e10, e11, eo1, eo0, e20, e21, e30, e31, e40, e41, e50, e51, e60, e61, e70, e71, e80, e81, e90, e91⟩ :=
    idx_facts t
  show A (((cfg0.win 0).blk t).view.emb (ix2 p k)) = A (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 64 + 1 * k.val = k.val; omega

/-- Through window 1's block at point t, entry (p, k) of the block is entry (4000 t + p, k) of ANY array of the window's
    shape: the block's rows are rows 4000 t … 4000 t + 3999 and its columns all 64 columns. -/
theorem read_rows1 (A : Mat 100000 64) (t : Fin cfg0.N) (p : Fin 4000) (r : Fin 100000)
    (hr : r.val = win0_10.index t (0 : Fin 2) * 4000 + p.val) (k : Fin 64) :
    ((cfg0.win 1).blk t).view.read (Elt Ideal) A (ix2 p k) = A (ix2 r k) := by
  obtain ⟨e00, e01, e10, e11, eo1, eo0, e20, e21, e30, e31, e40, e41, e50, e51, e60, e61, e70, e71, e80, e81, e90, e91⟩ :=
    idx_facts t
  show A (((cfg0.win 1).blk t).view.emb (ix2 p k)) = A (ix2 r k)
  refine congrArg _ (funext fun a => Fin.ext ?_)
  match a with
  | ⟨0, _⟩ => show win0_1.index t (0 : Fin 2) * 4000 + 1 * p.val = r.val; omega
  | ⟨1, _⟩ => show win0_1.index t (1 : Fin 2) * 64 + 1 * k.val = k.val; omega

/-- Row p of point t's node block is row 4000 t + p of the node array. -/
theorem node_row (c : Dev nD) (t : Fin cfg0.N) (p : Fin 4000) (r : Fin 100000)
    (hr : r.val = win0_10.index t (0 : Fin 2) * 4000 + p.val) (k : Fin 64) :
    nodeBlk m c t (ix2 p k) = nodes m c (ix2 r k) :=
  read_rows0 (V m c main_arg0) t p r hr k

/-- Row p of point t's neighbour-sum block is row 4000 t + p of the neighbour-sum array. -/
theorem sum_row (c : Dev nD) (t : Fin cfg0.N) (p : Fin 4000) (r : Fin 100000)
    (hr : r.val = win0_10.index t (0 : Fin 2) * 4000 + p.val) (k : Fin 64) :
    sumBlk m c t (ix2 p k) = sums m c (ix2 r k) :=
  read_rows1 (V m c main_v13) t p r hr k

/-- The encoder's array at entry (r, q). -/
theorem encoded_apply (c : Dev nD) (r : Fin 100000) (q : Fin 256) :
    encoded m c (ix2 r q)
      = encodeAff (w1 m c) (fun n => b1row m c (ix2 (0 : Fin 1) n)) (fun n => s1row m c (ix2 (0 : Fin 1) n))
          (fun n => t1row m c (ix2 (0 : Fin 1) n)) (w2 m c) (fun n => b2row m c (ix2 (0 : Fin 1) n))
          (fun n => s2row m c (ix2 (0 : Fin 1) n)) (fun n => t2row m c (ix2 (0 : Fin 1) n))
          (fun k => nodes m c (ix2 r k) + sums m c (ix2 r k)) q := rfl

/-- Entry (p, q) of point t's result block is entry (4000 t + p, q) of the result array. -/
theorem encoded_blk (c : Dev nD) (t : Fin cfg0.N) (p : Fin 4000) (q : Fin 256) (r : Fin 100000)
    (hr : r.val = win0_10.index t (0 : Fin 2) * 4000 + p.val) :
    encoded m c (((cfg0.win 10).blk t).view.emb (ix2 p q)) = encoded m c (ix2 r q) := by
  obtain ⟨e00, e01, e10, e11, eo1, eo0, e20, e21, e30, e31, e40, e41, e50, e51, e60, e61, e70, e71, e80, e81, e90, e91⟩ :=
    idx_facts t
  refine congrArg _ (funext fun a => Fin.ext ?_)
  match a with
  | ⟨0, _⟩ => show win0_10.index t (0 : Fin 2) * 4000 + 1 * p.val = r.val; omega
  | ⟨1, _⟩ => show win0_10.index t (1 : Fin 2) * 256 + 1 * q.val = q.val; omega

/-! ## What point t writes back -/

theorem flushed_eq (c : Dev nD) (t : Fin cfg0.N) :
    (dats m 0 c).flushed 10 t = ((cfg0.win 10).blk t).view.read (Elt Ideal) (encoded m c) := by
  rw [Value.flushed10]
  unfold out0_10
  rw [View.canon_unit_zero hz]
  simp only [View.ld_unit_zero (S := S4000x64) hz, View.ld_unit_zero (S := S64x256) hz,
    View.ld_unit_zero (S := S1x256) hz, View.ld_unit_zero (S := S256x256) hz]
  funext y
  obtain ⟨p, q, rfl⟩ : ∃ (p : Fin 4000) (q : Fin 256), y = ix2 p q := ⟨y 0, y 1, eq_ix2 y⟩
  have hlt : win0_10.index t (0 : Fin 2) * 4000 + p.val < 100000 := by
    have := (idx_facts t).2.2.2.2.2.1
    have := p.isLt
    omega
  show k0_pay1 (F := Ideal) (k0_pay2 (iblk m c 0 t) (iblk m c 1 t) (iblk m c 2 t) (iblk m c 3 t) (iblk m c 4 t) (iblk m c 5 t)
      (iblk m c 6 t) (iblk m c 7 t) (iblk m c 8 t)) (k0_pay3 (iblk m c 9 t)) (ix2 p q)
    = encoded m c (((cfg0.win 10).blk t).view.emb (ix2 p q))
  refine Eq.trans ?_ ((encoded_blk m c t p q ⟨_, hlt⟩ rfl).trans (encoded_apply m c ⟨_, hlt⟩ q)).symm
  refine (Cert.KernelIdeal.RowValue.payload_apply (iblk m c 0 t) (iblk m c 1 t) (iblk m c 2 t) (iblk m c 3 t) (iblk m c 4 t)
    (iblk m c 5 t) (iblk m c 6 t) (iblk m c 7 t) (iblk m c 8 t) (iblk m c 9 t) p q).trans ?_
  exact encodeAff_congr q (blk2 m c t) (fun n => congrFun (blk3 m c t) (ix2 (0 : Fin 1) n))
    (fun n => congrFun (blk4 m c t) (ix2 (0 : Fin 1) n)) (fun n => congrFun (blk5 m c t) (ix2 (0 : Fin 1) n))
    (blk6 m c t) (fun n => congrFun (blk7 m c t) (ix2 (0 : Fin 1) n))
    (fun n => congrFun (blk8 m c t) (ix2 (0 : Fin 1) n)) (fun n => congrFun (blk9 m c t) (ix2 (0 : Fin 1) n))
    (fun k => congrArg₂ (· + ·) (node_row m c t p ⟨_, hlt⟩ rfl k) (sum_row m c t p ⟨_, hlt⟩ rfl k))

/-! ## The blocks tile the array -/

/-- An index of the result array is in point t's block iff its row is among the point's 4000 rows. -/
theorem mem_blk (t : Fin cfg0.N) (i : S100000x256.Idx) :
    i ∈ ((cfg0.win 10).blk t).view.set ↔ ∀ a : Fin 2, win0_10.index t a * S4000x256.size a ≤ (i a).val
      ∧ (i a).val < win0_10.index t a * S4000x256.size a + S4000x256.size a := by
  show i ∈ ((View.whole main_v32).slice (win0_10.rect t)).set ↔ _
  rw [View.set_slice_whole, Rect.mem_set_unit]
  exact Iff.rfl

/-- Every index of the result array is in the block of the point that handles its row. -/
theorem covered (i : S100000x256.Idx) :
    ∃ t : Fin cfg0.N, (cfg0.win 10).flush t = true ∧ i ∈ ((cfg0.win 10).blk t).view.set := by
  have hi0 : (i 0).val < 100000 := (i 0).isLt
  have hi1 : (i 1).val < 256 := (i 1).isLt
  obtain ⟨t, ht⟩ := idx_onto ⟨(i 0).val / 4000, by omega⟩
  have q0 : win0_10.index t (0 : Fin 2) = (i 0).val / 4000 := congrFun ht 0
  have q1 : win0_10.index t (1 : Fin 2) = 0 := congrFun ht 1
  refine ⟨t, flush0_10 t, ?_⟩
  rw [mem_blk]
  intro a
  match a with
  | ⟨0, _⟩ =>
    show win0_10.index t (0 : Fin 2) * 4000 ≤ (i 0).val ∧ (i 0).val < win0_10.index t (0 : Fin 2) * 4000 + 4000
    omega
  | ⟨1, _⟩ =>
    show win0_10.index t (1 : Fin 2) * 256 ≤ (i 1).val ∧ (i 1).val < win0_10.index t (1 : Fin 2) * 256 + 256
    omega

/-- After the run the result array is the encoder's array. -/
theorem final (c : Dev nD) : (dats m 0 c).arrAt 10 cfg0.N = encoded m c :=
  (dats m 0 c).arrAt_eq_of_cover 10 (encoded m c) (fun t _ => flushed_eq m c t) covered

end Cert.KernelIdeal.ArrayValue

end
-- ==== Proof.KernelHost.lean ====
/-
  The one-row arrays the region finds, read at an entry.

  Before the region the host folds each normalisation into a scale vector gain * rsqrt (variance + eps) and a shift
  vector shift - mean * scale, and lays each bias, scale and shift vector out as a one-row matrix. Entry (0, n) of each
  one-row matrix is entry n of its vector, so the rows the kernel multiplies and adds by are the folded scale and
  shift of the specification.
-/
import proofs.«169085_j35356170780707_1_alg».proof.Proof.Gen.KernelIdeal.Frame
import proofs.«169085_j35356170780707_1_alg».proof.Proof.EncoderSpec
import Idealize.ShloMosaic.Lib.ValueLayout
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.EncoderSpec

variable (m : (ℓ : Loc nD τ sig) → Buf (Elt Ideal) ℓ)

/-! ## The vector arguments as launched, under names of their literal type -/

abbrev bias1v (c : Dev nD) : Col 256 := m ((c : Thread nD τ).loc main_arg4)
abbrev gain1v (c : Dev nD) : Col 256 := m ((c : Thread nD τ).loc main_arg5)
abbrev shift1v (c : Dev nD) : Col 256 := m ((c : Thread nD τ).loc main_arg6)
abbrev mean1v (c : Dev nD) : Col 256 := m ((c : Thread nD τ).loc main_arg7)
abbrev var1v (c : Dev nD) : Col 256 := m ((c : Thread nD τ).loc main_arg8)
abbrev bias2v (c : Dev nD) : Col 256 := m ((c : Thread nD τ).loc main_arg10)
abbrev gain2v (c : Dev nD) : Col 256 := m ((c : Thread nD τ).loc main_arg11)
abbrev shift2v (c : Dev nD) : Col 256 := m ((c : Thread nD τ).loc main_arg12)
abbrev mean2v (c : Dev nD) : Col 256 := m ((c : Thread nD τ).loc main_arg13)
abbrev var2v (c : Dev nD) : Col 256 := m ((c : Thread nD τ).loc main_arg14)

/-- The host's scale vector of one layer. -/
def scaleVec (g rv : FVec Ideal S256 .f32) : FVec Ideal S256 .f32 :=
  mulf g (Host.rsqrt (addf rv (broadcastInDim S256 ![] bcast_S_S256 (constant (F := Ideal) S_ .f32 0x3727C5AC#32))))

/-- The host's shift vector of one layer. -/
def shiftVec (g be rm rv : FVec Ideal S256 .f32) : FVec Ideal S256 .f32 := subf be (mulf rm (scaleVec g rv))

theorem scaleVec_apply (g rv : FVec Ideal S256 .f32) (n : Fin 256) : scaleVec g rv (ix1 n) = scale g rv n := rfl

theorem shiftVec_apply (g be rm rv : FVec Ideal S256 .f32) (n : Fin 256) :
    shiftVec g be rm rv (ix1 n) = be (ix1 n) - rm (ix1 n) * scale g rv n := rfl

/-! ## The six one-row arrays as the host leaves them -/

theorem bias1 (c : Dev nD) : (V m c main_v26 : Mat 1 256)
    = shapeCast S1x256 (m ((c : Thread nD τ).loc main_arg4)) shapeCasts_S256_S1x256 := by
  dsimp only [Gen.V, Gen.hostOps0]; after_results_simp; rfl

theorem scale1 (c : Dev nD) : (V m c main_v27 : Mat 1 256)
    = shapeCast S1x256 (scaleVec (m ((c : Thread nD τ).loc main_arg5)) (m ((c : Thread nD τ).loc main_arg8)))
        shapeCasts_S256_S1x256 := by
  dsimp only [Gen.V, Gen.hostOps0]; after_results_simp; rfl

theorem shift1 (c : Dev nD) : (V m c main_v28 : Mat 1 256)
    = shapeCast S1x256 (shiftVec (m ((c : Thread nD τ).loc main_arg5)) (m ((c : Thread nD τ).loc main_arg6))
        (m ((c : Thread nD τ).loc main_arg7)) (m ((c : Thread nD τ).loc main_arg8))) shapeCasts_S256_S1x256 := by
  dsimp only [Gen.V, Gen.hostOps0]; after_results_simp; rfl

theorem bias2 (c : Dev nD) : (V m c main_v29 : Mat 1 256)
    = shapeCast S1x256 (m ((c : Thread nD τ).loc main_arg10)) shapeCasts_S256_S1x256 := by
  dsimp only [Gen.V, Gen.hostOps0]; after_results_simp; rfl

theorem scale2 (c : Dev nD) : (V m c main_v30 : Mat 1 256)
    = shapeCast S1x256 (scaleVec (m ((c : Thread nD τ).loc main_arg11)) (m ((c : Thread nD τ).loc main_arg14)))
        shapeCasts_S256_S1x256 := by
  dsimp only [Gen.V, Gen.hostOps0]; after_results_simp; rfl

theorem shift2 (c : Dev nD) : (V m c main_v31 : Mat 1 256)
    = shapeCast S1x256 (shiftVec (m ((c : Thread nD τ).loc main_arg11)) (m ((c : Thread nD τ).loc main_arg12))
        (m ((c : Thread nD τ).loc main_arg13)) (m ((c : Thread nD τ).loc main_arg14))) shapeCasts_S256_S1x256 := by
  dsimp only [Gen.V, Gen.hostOps0]; after_results_simp; rfl

/-! ## Read at entry (0, n) -/

theorem bias1_apply (c : Dev nD) (n : Fin 256) :
    (V m c main_v26 : Mat 1 256) (ix2 (0 : Fin 1) n) = bias1v m c (ix1 n) := by
  rw [bias1]; exact shapeCast_a_1a_apply _ _ 0 n

theorem scale1_apply (c : Dev nD) (n : Fin 256) :
    (V m c main_v27 : Mat 1 256) (ix2 (0 : Fin 1) n) = scale (gain1v m c) (var1v m c) n := by
  rw [scale1]; exact (shapeCast_a_1a_apply _ _ 0 n).trans (scaleVec_apply _ _ n)

theorem shift1_apply (c : Dev nD) (n : Fin 256) :
    (V m c main_v28 : Mat 1 256) (ix2 (0 : Fin 1) n)
      = shift1v m c (ix1 n) - mean1v m c (ix1 n) * scale (gain1v m c) (var1v m c) n := by
  rw [shift1]; exact (shapeCast_a_1a_apply _ _ 0 n).trans (shiftVec_apply _ _ _ _ n)

theorem bias2_apply (c : Dev nD) (n : Fin 256) :
    (V m c main_v29 : Mat 1 256) (ix2 (0 : Fin 1) n) = bias2v m c (ix1 n) := by
  rw [bias2]; exact shapeCast_a_1a_apply _ _ 0 n

theorem scale2_apply (c : Dev nD) (n : Fin 256) :
    (V m c main_v30 : Mat 1 256) (ix2 (0 : Fin 1) n) = scale (gain2v m c) (var2v m c) n := by
  rw [scale2]; exact (shapeCast_a_1a_apply _ _ 0 n).trans (scaleVec_apply _ _ n)

theorem shift2_apply (c : Dev nD) (n : Fin 256) :
    (V m c main_v31 : Mat 1 256) (ix2 (0 : Fin 1) n)
      = shift2v m c (ix1 n) - mean2v m c (ix1 n) * scale (gain2v m c) (var2v m c) n := by
  rw [shift2]; exact (shapeCast_a_1a_apply _ _ 0 n).trans (shiftVec_apply _ _ _ _ n)

end Cert.KernelIdeal.HostValue

end
-- ==== Proof.KernelResult.lean ====
/-
  The kernel's run, with its result named by the specification.

  After the run the result array is the encoder's array over the arrays the region finds; the one-row arrays it finds are
  the biases and the folded scales and shifts of the launch arguments, and the matrices it finds are the launch
  arguments themselves. So the result is the specification's folded form of the launch arguments and of the array of
  neighbour sums the host computed before the region.
-/
import proofs.«169085_j35356170780707_1_alg».proof.Proof.KernelArray
import proofs.«169085_j35356170780707_1_alg».proof.Proof.KernelHost

noncomputable section

namespace Cert.KernelIdeal.ResultValue

open Cert.KernelIdeal Cert.KernelIdeal.Gen Idealize.ShloMosaic Idealize.ShloMosaic.TcCoe Idealize.SL.Sem
open Idealize.ShloMosaic.ValueIdx Cert.EncoderSpec Cert.KernelIdeal.ArrayValue Cert.KernelIdeal.HostValue

variable (m : (ℓ : Loc nD τ sig) → Buf (Elt Ideal) ℓ) (ρ : Dev nD → PrngReg)

/-- The matrix arguments as launched, under names of their literal type. -/
abbrev nodes0 (c : Dev nD) : Mat 100000 64 := m ((c : Thread nD τ).loc main_arg0)
abbrev weight1 (c : Dev nD) : Mat 64 256 := m ((c : Thread nD τ).loc main_arg3)
abbrev weight2 (c : Dev nD) : Mat 256 256 := m ((c : Thread nD τ).loc main_arg9)

/-- The array of neighbour sums the host leaves for the region. -/
abbrev sums0 (c : Dev nD) : Mat 100000 64 := V m c main_v13

/-- The specification's folded form of the launch arguments. -/
def spec (c : Dev nD) : Mat 100000 256 :=
  resultFold (nodes0 m c) (sums0 m c) (weight1 m c) (bias1v m c) (gain1v m c) (shift1v m c) (mean1v m c) (var1v m c)
    (weight2 m c) (bias2v m c) (gain2v m c) (shift2v m c) (mean2v m c) (var2v m c)

/-- The specification's array at entry (r, q), in the affine form. -/
theorem spec_apply (c : Dev nD) (r : Fin 100000) (q : Fin 256) :
    spec m c (ix2 r q)
      = encodeAff (weight1 m c) (fun n => bias1v m c (ix1 n)) (scale (gain1v m c) (var1v m c))
          (fun n => shift1v m c (ix1 n) - mean1v m c (ix1 n) * scale (gain1v m c) (var1v m c) n)
          (weight2 m c) (fun n => bias2v m c (ix1 n)) (scale (gain2v m c) (var2v m c))
          (fun n => shift2v m c (ix1 n) - mean2v m c (ix1 n) * scale (gain2v m c) (var2v m c) n)
          (fun k => nodes0 m c (ix2 r k) + sums0 m c (ix2 r k)) q := rfl

theorem encoded_eq_spec (c : Dev nD) : encoded m c = spec m c := by
  funext j
  obtain ⟨r, q, rfl⟩ : ∃ (r : Fin 100000) (q : Fin 256), j = ix2 r q := ⟨j 0, j 1, eq_ix2 j⟩
  have e0 : nodes m c = nodes0 m c := V_main_arg0 m c
  have e3 : w1 m c = weight1 m c := V_main_arg3 m c
  have e9 : w2 m c = weight2 m c := V_main_arg9 m c
  exact (encoded_apply m c r q).trans ((encodeAff_congr q e3 (bias1_apply m c) (scale1_apply m c) (shift1_apply m c)
    e9 (bias2_apply m c) (scale2_apply m c) (shift2_apply m c)
    (fun k => congrArg₂ (· + ·) (congrFun e0 (ix2 r k)) rfl)).trans (spec_apply m c r q).symm)

/-- The frame run re-posted: the result array is the specification's, the arguments unchanged. -/
theorem run : θ_run defs (onTc (τ := τ) (main (F := Ideal))) ⟨m, fun _ => 0, ρ⟩ fun r => ∀ c : Dev nD,
      r.2.mem ((c : Thread nD τ).loc main_v32) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans ((final m c).trans (encoded_eq_spec m c)), (h c).2⟩)
    (Cert.KernelIdeal.Value.run_blocks m ρ)

end Cert.KernelIdeal.ResultValue

end
-- ==== Proof.RefValue.lean ====
/-
  The reference's result array, read index by index, is the specification in its "mean first" form.

  The reference adds the neighbour sums to the node array, and sends the sum twice through "matrix product, add the
  bias, subtract the mean, multiply by gain * rsqrt (variance + eps), add the shift, rectify", every vector broadcast
  along the rows. Read at entry (p, q) each broadcast is its vector's entry q, and each product is the sum over the
  contraction index of row p of the left matrix against column q of the right one.
-/
import proofs.«169085_j35356170780707_1_alg».proof.Proof.Gen.ReferenceIdeal.Read
import proofs.«169085_j35356170780707_1_alg».proof.Proof.EncoderSpec

noncomputable section

namespace Cert.ReferenceIdeal.RefValue

open Cert.ReferenceIdeal Cert.ReferenceIdeal.Gen Cert.ReferenceIdeal.Read Idealize.ShloMosaic Idealize.ShloMosaic.ValueIdx
open Cert.EncoderSpec

variable (x0 : FVec Ideal S100000x64 .f32) (x2 : IVec S2x1600000 32) (x3 : FVec Ideal S64x256 .f32)
  (x4 x5 x6 x7 x8 : FVec Ideal S256 .f32) (x9 : FVec Ideal S256x256 .f32) (x10 x11 x12 x13 x14 : FVec Ideal S256 .f32)

/-- The first layer's rectified output at entry (p, k). -/
theorem hidden_apply (p : Fin 100000) (k : Fin 256) :
    val_main_v33 (F := Ideal) x0 x2 x3 x4 x5 x6 x7 x8 (ix2 p k)
      = normRelu x5 x6 x7 x8 (dense x3 x4 (fun j => x0 (ix2 p j) + val_main_v13 (F := Ideal) x0 x2 (ix2 p j)) k) k := by
  have e4 : idx_main_v16 (idx_main_v17 (ix2 p k)) = ix1 k := funext fun a => by match a with | ⟨0, _⟩ => rfl
  have e7 : idx_main_v19 (idx_main_v20 (ix2 p k)) = ix1 k := funext fun a => by match a with | ⟨0, _⟩ => rfl
  have e5 : idx_main_v26 (idx_main_v27 (ix2 p k)) = ix1 k := funext fun a => by match a with | ⟨0, _⟩ => rfl
  have e6 : idx_main_v29 (idx_main_v30 (ix2 p k)) = ix1 k := funext fun a => by match a with | ⟨0, _⟩ => rfl
  have el : ∀ j : Fin 64, lidx_main_v15 (ix2 p k) j = ix2 p j := fun j => funext fun a => by
    match a with | ⟨0, _⟩ => rfl | ⟨1, _⟩ => rfl
  have er : ∀ j : Fin 64, ridx_main_v15 (ix2 p k) j = ix2 j k := fun j => funext fun a => by
    match a with | ⟨0, _⟩ => rfl | ⟨1, _⟩ => rfl
  rw [val_main_v33_apply, val_main_v31_apply, val_main_v28_apply, val_main_v21_apply, val_main_v18_apply,
    val_main_v15_apply, val_main_v17_apply, val_main_v16_apply, val_main_v20_apply, val_main_v19_apply,
    val_main_v27_apply, val_main_v26_apply, val_main_v25_apply, val_main_v24_apply, val_main_v23_apply,
    val_main_v22_apply, val_main_cst_1_apply, val_main_v30_apply, val_main_v29_apply, val_main_v32_apply,
    val_main_cst_2_apply, e4, e7, e5, e6]
  simp only [el, er, val_main_v14_apply]
  unfold normRelu dense scale
  rw [← Ideal.ofBits_zero_f32]
  rfl

/-- The result at entry (p, q), over the first layer's output. -/
theorem result_apply (p : Fin 100000) (q : Fin 256) :
    val_main_v52 (F := Ideal) x0 x2 x3 x4 x5 x6 x7 x8 x9 x10 x11 x12 x13 x14 (ix2 p q)
      = normRelu x11 x12 x13 x14
          (dense x9 x10 (fun k => val_main_v33 (F := Ideal) x0 x2 x3 x4 x5 x6 x7 x8 (ix2 p k)) q) q := by
  have e10 : idx_main_v35 (idx_main_v36 (ix2 p q)) = ix1 q := funext fun a => by match a with | ⟨0, _⟩ => rfl
  have e13 : idx_main_v38 (idx_main_v39 (ix2 p q)) = ix1 q := funext fun a => by match a with | ⟨0, _⟩ => rfl
  have e11 : idx_main_v45 (idx_main_v46 (ix2 p q)) = ix1 q := funext fun a => by match a with | ⟨0, _⟩ => rfl
  have e12 : idx_main_v48 (idx_main_v49 (ix2 p q)) = ix1 q := funext fun a => by match a with | ⟨0, _⟩ => rfl
  have el : ∀ k : Fin 256, lidx_main_v34 (ix2 p q) k = ix2 p k := fun k => funext fun a => by
    match a with | ⟨0, _⟩ => rfl | ⟨1, _⟩ => rfl
  have er : ∀ k : Fin 256, ridx_main_v34 (ix2 p q) k = ix2 k q := fun k => funext fun a => by
    match a with | ⟨0, _⟩ => rfl | ⟨1, _⟩ => rfl
  rw [val_main_v52_apply, val_main_v50_apply, val_main_v47_apply, val_main_v40_apply, val_main_v37_apply,
    val_main_v34_apply, val_main_v36_apply, val_main_v35_apply, val_main_v39_apply, val_main_v38_apply,
    val_main_v46_apply, val_main_v45_apply, val_main_v44_apply, val_main_v43_apply, val_main_v42_apply,
    val_main_v41_apply, val_main_cst_3_apply, val_main_v49_apply, val_main_v48_apply, val_main_v51_apply,
    val_main_cst_4_apply, e10, e13, e11, e12]
  simp only [el, er]
  unfold normRelu dense scale
  rw [← Ideal.ofBits_zero_f32]
  rfl

/-- The reference's result array is the specification's, over its own array of neighbour sums. -/
theorem result_eq :
    val_main_v52 (F := Ideal) x0 x2 x3 x4 x5 x6 x7 x8 x9 x10 x11 x12 x13 x14
      = resultNorm x0 (val_main_v13 (F := Ideal) x0 x2) x3 x4 x5 x6 x7 x8 x9 x10 x11 x12 x13 x14 := by
  funext i
  obtain ⟨p, q, rfl⟩ : ∃ (p : Fin 100000) (q : Fin 256), i = ix2 p q := ⟨i 0, i 1, eq_ix2 i⟩
  rw [result_apply]
  simp only [hidden_apply]
  rfl

end Cert.ReferenceIdeal.RefValue

end
-- ==== Proof.Aggregate.lean ====
/-
  Both programs compute the array of neighbour sums by the same host operations: gather the source node's row for every
  edge, and add each gathered row into its destination node's row of a zero array. The kernel's program leaves that array
  for its region to read; the reference adds it to the node array directly. As terms over the launch arguments the two are
  the same.
-/
import proofs.«169085_j35356170780707_1_alg».proof.Proof.Gen.KernelIdeal.Frame
import proofs.«169085_j35356170780707_1_alg».proof.Proof.Gen.ReferenceIdeal.Read
import proofs.«169085_j35356170780707_1_alg».proof.Proof.EncoderSpec
import Idealize.ShloMosaic.Lib.StableHlo.Run

noncomputable section

namespace Cert.Aggregate

open Idealize.ShloMosaic Idealize.ShloMosaic.TcCoe Idealize.SL.Sem Idealize.ShloMosaic.StableHlo

/-- The neighbour sums the kernel's region finds are the reference's, as a function of the node array and the edge list. -/
theorem sums_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v13 : Cert.EncoderSpec.Mat 100000 64)
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg2)) := by
  dsimp only [Cert.KernelIdeal.Gen.V, Cert.KernelIdeal.Gen.hostOps0]
  after_results_simp
  rfl

end Cert.Aggregate

end
-- ==== Proof.PreFacts.lean ====
/-
  What the precondition says of the normalisation parameters.

  The precondition is a conjunction of "every entry of this float argument has absolute value below +inf", one
  conjunct per float argument, followed by "every entry of the first layer's variance is >= 0" and the same for the
  second layer's. An extended real whose absolute value is below +inf is a real number. So under the precondition the
  gains and the means of both layers are real, and both variances are real and not negative.
-/
import proofs.«169085_j35356170780707_1_alg».proof.Pre_finite_inputs
import proofs.«169085_j35356170780707_1_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs Cert.Pre_finite_inputs.Gen

instance : Subsingleton S_.Idx := ⟨fun a b => funext fun d => d.elim0⟩

/-- The pattern of +inf denotes the top element. -/
theorem ofBits_inf : Ideal.ofBits .f32 0x7F800000#32 = ⊤ := by simp [Ideal.ofBits, Ideal.ieee]

/-- An extended real whose absolute value is below +inf is a real number. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [ofBits_inf] at h
  induction x using EReal.rec with
  | bot => exact absurd h (by simp [FloatOps.cmpf, FloatOps.hostAbsf, Ideal.cmp])
  | top => exact absurd h (by simp [FloatOps.cmpf, FloatOps.hostAbsf, Ideal.cmp])
  | coe r => exact ⟨r, rfl⟩

/-- An extended real that tests >= 0 is not negative. -/
theorem nonneg_of_ge (x : EReal)
    (h : FloatOps.cmpf (F := Ideal) (φ := .f32) .oge x (Ideal.ofBits .f32 0x00000000#32) = 1#1) : 0 ≤ x := by
  rw [Ideal.ofBits_zero_f32] at h
  by_contra hx
  exact absurd h (by simp [FloatOps.cmpf, Ideal.cmp, hx])

/-- A real extended real that is not negative is a real number that is not negative. -/
theorem real_nonneg (x : EReal) (hr : ∃ r : ℝ, x = (r : EReal)) (h0 : 0 ≤ x) : ∃ r : ℝ, 0 ≤ r ∧ x = (r : EReal) := by
  obtain ⟨r, rfl⟩ := hr
  exact ⟨r, EReal.coe_nonneg.mp h0, rfl⟩

theorem of_pre (a0 : FVec Ideal S100000x64 .f32) (a1 : FVec Ideal S100000x2 .f32) (a2 : IVec S2x1600000 32)
    (a3 : FVec Ideal S64x256 .f32) (a4 a5 a6 a7 a8 : FVec Ideal S256 .f32) (a9 : FVec Ideal S256x256 .f32)
    (a10 a11 a12 a13 a14 : FVec Ideal S256 .f32)
    (h : fn (F := Ideal) a0 a1 a2 a3 a4 a5 a6 a7 a8 a9 a10 a11 a12 a13 a14 = fun _ => 1#1) :
    (∀ n : Fin 256, ∃ r : ℝ, a5 (ix1 n) = (r : EReal)) ∧ (∀ n : Fin 256, ∃ r : ℝ, a7 (ix1 n) = (r : EReal))
    ∧ (∀ n : Fin 256, ∃ r : ℝ, 0 ≤ r ∧ a8 (ix1 n) = (r : EReal))
    ∧ (∀ n : Fin 256, ∃ r : ℝ, a11 (ix1 n) = (r : EReal)) ∧ (∀ n : Fin 256, ∃ r : ℝ, a13 (ix1 n) = (r : EReal))
    ∧ (∀ n : Fin 256, ∃ r : ℝ, 0 ≤ r ∧ a14 (ix1 n) = (r : EReal)) := by
  have h0 := congrFun h ix0
  dsimp only [fn, fn_part1, fn_part2, fn_part3, fn_part4] at h0
  obtain ⟨h1, hv2⟩ := IntOp.andi_eq_one.1 h0
  obtain ⟨h2, hv1⟩ := IntOp.andi_eq_one.1 h1
  obtain ⟨h3, hf14⟩ := IntOp.andi_eq_one.1 h2
  obtain ⟨h4, hf13⟩ := IntOp.andi_eq_one.1 h3
  obtain ⟨h5, hf12⟩ := IntOp.andi_eq_one.1 h4
  obtain ⟨h6, hf11⟩ := IntOp.andi_eq_one.1 h5
  obtain ⟨h7, hf10⟩ := IntOp.andi_eq_one.1 h6
  obtain ⟨h8, hf9⟩ := IntOp.andi_eq_one.1 h7
  obtain ⟨h9, hf8⟩ := IntOp.andi_eq_one.1 h8
  obtain ⟨h10, hf7⟩ := IntOp.andi_eq_one.1 h9
  obtain ⟨h11, hf6⟩ := IntOp.andi_eq_one.1 h10
  obtain ⟨h12, hf5⟩ := IntOp.andi_eq_one.1 h11
  have r5 : ∀ n : Fin 256, ∃ r : ℝ, a5 (ix1 n) = (r : EReal) := fun n =>
    real_of_abs_lt _ (Host.reduce_andi_all _ _ _ _ _ hf5 (ix1 n))
  have r7 : ∀ n : Fin 256, ∃ r : ℝ, a7 (ix1 n) = (r : EReal) := fun n =>
    real_of_abs_lt _ (Host.reduce_andi_all _ _ _ _ _ hf7 (ix1 n))
  have r8 : ∀ n : Fin 256, ∃ r : ℝ, a8 (ix1 n) = (r : EReal) := fun n =>
    real_of_abs_lt _ (Host.reduce_andi_all _ _ _ _ _ hf8 (ix1 n))
  have r11 : ∀ n : Fin 256, ∃ r : ℝ, a11 (ix1 n) = (r : EReal) := fun n =>
    real_of_abs_lt _ (Host.reduce_andi_all _ _ _ _ _ hf11 (ix1 n))
  have r13 : ∀ n : Fin 256, ∃ r : ℝ, a13 (ix1 n) = (r : EReal) := fun n =>
    real_of_abs_lt _ (Host.reduce_andi_all _ _ _ _ _ hf13 (ix1 n))
  have r14 : ∀ n : Fin 256, ∃ r : ℝ, a14 (ix1 n) = (r : EReal) := fun n =>
    real_of_abs_lt _ (Host.reduce_andi_all _ _ _ _ _ hf14 (ix1 n))
  exact ⟨r5, r7, fun n => real_nonneg _ (r8 n) (nonneg_of_ge _ (Host.reduce_andi_all _ _ _ _ _ hv1 (ix1 n))),
    r11, r13, fun n => real_nonneg _ (r14 n) (nonneg_of_ge _ (Host.reduce_andi_all _ _ _ _ _ hv2 (ix1 n)))⟩

end Cert.PreFacts

end
-- ==== Proof.lean ====
/-
  The certificate of the node encoder: the kernel computes what the reference computes, over the extended reals.

  Both programs first form, on the host and by the same operations, the array of neighbour sums. The reference then
  sends "nodes + sums" twice through a dense layer, an evaluation-mode normalisation (subtract the mean, multiply by
  gain * rsqrt (variance + eps), add the shift) and a rectification. The kernel folds each normalisation into one affine
  map on the host (scale = gain * rsqrt (variance + eps), shift' = shift - mean * scale) and applies "dense layer,
  times scale, plus shift', rectify" twice, on blocks of 4000 rows.

  (z - mean) * scale + shift = z * scale + (shift - mean * scale) holds on the extended reals for every z as soon as the
  mean and the scale are real numbers. The precondition makes every gain and mean real and every variance a real number
  that is not negative, so variance + eps is positive and the scale is real. Without "variance >= 0" the claim fails:
  at variance = -eps the scale is infinite and the two sides differ.

  Modules: NormFold (the law), EncoderSpec (both forms of the encoder, and their equality), KernelRow (the body's
  stored value at an entry), KernelArray (the blocks tile the result), KernelHost (the folded rows the host prepares),
  KernelResult (the kernel's run), RefValue (the reference's result read entry by entry), Aggregate (one array of
  neighbour sums), PreFacts (what the precondition gives).
-/
import proofs.«169085_j35356170780707_1_alg».proof.Defs
import proofs.«169085_j35356170780707_1_alg».proof.Proof.Gen.Kernel
import proofs.«169085_j35356170780707_1_alg».proof.Proof.Gen.Kernel.Skeleton
import proofs.«169085_j35356170780707_1_alg».proof.Proof.Gen.Kernel.Launch
import proofs.«169085_j35356170780707_1_alg».proof.Proof.Gen.Kernel.Points
import proofs.«169085_j35356170780707_1_alg».proof.Proof.Gen.Kernel.Frame
import proofs.«169085_j35356170780707_1_alg».proof.Proof.Gen.KernelIdeal
import proofs.«169085_j35356170780707_1_alg».proof.Proof.Gen.KernelIdeal.Skeleton
import proofs.«169085_j35356170780707_1_alg».proof.Proof.Gen.KernelIdeal.Launch
import proofs.«169085_j35356170780707_1_alg».proof.Proof.Gen.KernelIdeal.Points
import proofs.«169085_j35356170780707_1_alg».proof.Proof.Gen.KernelIdeal.Frame
import proofs.«169085_j35356170780707_1_alg».proof.Proof.Gen.ReferenceIdeal
import proofs.«169085_j35356170780707_1_alg».proof.Proof.Gen.Pre_finite_inputs
import proofs.«169085_j35356170780707_1_alg».proof.Proof.Gen.KernelIdeal.Value
import proofs.«169085_j35356170780707_1_alg».proof.Proof.Gen.ReferenceIdeal.Run
import proofs.«169085_j35356170780707_1_alg».proof.Proof.Gen.ReferenceIdeal.Read
import proofs.«169085_j35356170780707_1_alg».proof.Proof.KernelResult
import proofs.«169085_j35356170780707_1_alg».proof.Proof.RefValue
import proofs.«169085_j35356170780707_1_alg».proof.Proof.Aggregate
import proofs.«169085_j35356170780707_1_alg».proof.Proof.PreFacts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel ends at the folded form and the reference at the "mean first" form of one encoder, over the same array of
    neighbour sums; under the precondition the two forms are one function. -/
theorem algebraic : Cert.algebraic_KernelIdeal_ReferenceIdeal := by
  intro m ρ m' ρ' hpre hagree
  refine ⟨fun c => Cert.KernelIdeal.ResultValue.spec m c, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, _, e2, e3, e4, e5, e6, e7, e8, e9, e10, e11, e12, e13, e14⟩ := hagree c
  obtain ⟨hg1, hm1, hv1, hg2, hm2, hv2⟩ := Cert.PreFacts.of_pre _ _ _ _ _ _ _ _ _ _ _ _ _ _ _ (hpre c)
  rw [e0, e2, e3, e4, e5, e6, e7, e8, e9, e10, e11, e12, e13, e14]
  refine (Cert.ReferenceIdeal.Read.val_main_v52_eq (F := Ideal) _ _ _ _ _ _ _ _ _ _ _ _ _ _).trans ?_
  refine (Cert.ReferenceIdeal.RefValue.result_eq _ _ _ _ _ _ _ _ _ _ _ _ _ _).trans ?_
  unfold Cert.KernelIdeal.ResultValue.spec
  rw [← Cert.Aggregate.sums_eq m c]
  exact Cert.EncoderSpec.resultNorm_eq_resultFold _ _ _ _ _ _ _ _ _ _ _ _ _ _ hg1 hm1 hv1 hg2 hm2 hv2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
